-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S256x2048 : Shape := ⟨2, ![256, 2048]⟩
abbrev S8192x256 : Shape := ⟨2, ![8192, 256]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn_part1 {F : FTy → Type} [FloatOps F] (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  main_v18

def fn {F : FTy → Type} [FloatOps F] (main_arg0 : FVec F S4x4096x2048 .f32) (main_arg1 : FVec F S256x2048 .f32) (main_arg2 : FVec F S8192x256 .f32) (main_arg3 : FVec F S8192x256 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_v13 main_v16
-- ==== Kernel.lean ====
abbrev S4x4096x2048 : Shape := ⟨3, ![4, 4096, 2048]⟩
abbrev S256x2048 : Shape := ⟨2, ![256, 2048]⟩
abbrev S8192x256 : Shape := ⟨2, ![8192, 256]⟩
abbrev S16384x2048 : Shape := ⟨2, ![16384, 2048]⟩
abbrev S16384x8192 : Shape := ⟨2, ![16384, 8192]⟩
abbrev S512x2048 : Shape := ⟨2, ![512, 2048]⟩
abbrev S1024x256 : Shape := ⟨2, ![1024, 256]⟩
abbrev S512x1024 : Shape := ⟨2, ![512, 1024]⟩
abbrev S512x256 : Shape := ⟨2, ![512, 256]⟩
abbrev S2048x256 : Shape := ⟨2, ![2048, 256]⟩
abbrev S256x1024 : Shape := ⟨2, ![256, 1024]⟩
abbrev S4x4096x8192 : Shape := ⟨3, ![4, 4096, 8192]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S256x2048, .f32⟩
  | .hbm, ⟨2, _⟩ => ⟨S8192x256, .f32⟩
  | .hbm, ⟨3, _⟩ => ⟨S8192x256, .f32⟩
  | .hbm, ⟨4, _⟩ => ⟨S16384x2048, .f32⟩
  | .hbm, ⟨5, _⟩ => ⟨S8192x256, .f32⟩
  | .hbm, ⟨6, _⟩ => ⟨S8192x256, .f32⟩
  | .hbm, ⟨7, _⟩ => ⟨S16384x8192, .f32⟩
  | .hbm, ⟨8, _⟩ => ⟨S4x4096x8192, .f32⟩
  | .local _ .vmem, ⟨0, _⟩ => ⟨S512x2048, .f32⟩
  | .local _ .vmem, ⟨1, _⟩ => ⟨S512x2048, .f32⟩
  | .local _ .vmem, ⟨2, _⟩ => ⟨S256x2048, .f32⟩
  | .local _ .vmem, ⟨3, _⟩ => ⟨S1024x256, .f32⟩
  | .local _ .vmem, ⟨4, _⟩ => ⟨S1024x256, .f32⟩
  | .local _ .vmem, ⟨5, _⟩ => ⟨S512x1024, .f32⟩
  | .local _ .vmem, ⟨6, _⟩ => ⟨S512x1024, .f32⟩
  | .local _ .vmem, ⟨7, _⟩ => ⟨S512x256, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  transposes_S256x2048_p1_0_S2048x256 : S256x2048.Transposes [1, 0] S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S512x1024_S512x1024_0_0 : ∀ a, (![0, 0] : Fin 2 → Nat) a + S512x1024.size a ≤ S512x1024.size a
  h_S512x1024 : 0 < S512x1024.numel
  shapeCasts_S16384x8192_S4x4096x8192 : S16384x8192.ShapeCasts S4x4096x8192
  dot_S512x2048_S2048x256_S512x256_1_0_0_1_n_n_wf : DotDims.WF S512x2048 S2048x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x8192.size a
  hwx0_3 : ∀ i : grid0.Coords, EltTy.bits .f32 = 32 ∨ (Rect.block (s := S16384x8192) S512x1024.size (cc0_transform_3 i) (hinb0_3 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S256x2048 : Shape := ⟨2, ![256, 2048]⟩
abbrev S8192x256 : Shape := ⟨2, ![8192, 256]⟩
abbrev S4x4096x256 : Shape := ⟨3, ![4, 4096, 256]⟩
abbrev S4x4096x8192 : Shape := ⟨3, ![4, 4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S256x2048, .f32⟩
  | .hbm, ⟨2, _⟩ => ⟨S8192x256, .f32⟩
  | .hbm, ⟨3, _⟩ => ⟨S8192x256, .f32⟩
  | .hbm, ⟨4, _⟩ => ⟨S4x4096x256, .f32⟩
  | .hbm, ⟨5, _⟩ => ⟨S8192x256, .f32⟩
  | .hbm, ⟨6, _⟩ => ⟨S8192x256, .f32⟩
  | .hbm, ⟨7, _⟩ => ⟨S4x4096x8192, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S4x4096x2048_S256x2048_S4x4096x256_2_1_01_0_n_n_wf : DotDims.WF S4x4096x2048 S256x2048 S4x4096x256 [2] [1] [0, 1] [0] [] []
  dot_S4x4096x256_S8192x256_S4x4096x8192_2_1_01_0_n_n_wf : DotDims.WF S4x4096x256 S8192x256 S4x4096x8192 [2] [1] [0, 1] [0] [] []

variable [Facts₀]

def dot_S4x4096x2048_S256x2048_S4x4096x256_2_1_01_0_n_n : DotDims S4x4096x2048 S256x2048 S4x4096x256 where
  lhsContracting := [2]
  rhsContracting := [1]
  lhsNonContracting := [0, 1]
  rhsNonContracting := [0]
  lhsBatch := []
  rhsBatch := []
  wf := dot_S4x4096x2048_S256x2048_S4x4096x256_2_1_01_0_n_n_wf
def dot_S4x4096x256_S8192x256_S4x4096x8192_2_1_01_0_n_n : DotDims S4x4096x256 S8192x256 S4x4096x8192 where
  lhsContracting := [2]
  rhsContracting := [1]
  lhsNonContracting := [0, 1]
  rhsNonContracting := [0]
  lhsBatch := []
  rhsBatch := []
  wf := dot_S4x4096x256_S8192x256_S4x4096x8192_2_1_01_0_n_n_wf

class Facts : Prop extends Facts₀ where

variable [Facts]
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.Payload.lean ====
/-
  The two block products of the kernel body, read at one entry over the extended reals.

  At the exact instance a change of float format is the identity, so the body's first product is the [512, 2048]
  block of the flattened input times the TRANSPOSED [256, 2048] basis: entry (p, h) is the dot product of row p of
  the block with row h of the basis. The second product is the cached [512, 256] resonance block times the
  transposed [1024, 256] weight block: entry (p, q) is the dot product of resonance row p with weight row q.
-/
import proofs.«126258_j19301583029003_1_alg».proof.Proof.Gen.KernelIdeal.Skeleton
import proofs.«126258_j19301583029003_1_alg».proof.Proof.LibPlainMatmul
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen

/-- The resonance block: entry (p, h) is the sum over the 2048 input features j of
    `block (p, j) * basis (h, j)`. -/
theorem resonance_entry (xb : Vec Ideal S512x2048 .f32) (bs : Vec Ideal S256x2048 .f32) (p : Fin 512) (h : Fin 256) :
    k0_pay1 (F := Ideal) xb bs (ix2 p h) = ∑ j : Fin 2048, xb (ix2 p j) * bs (ix2 h j) := by
  unfold k0_pay1
  simp only [shapeCast_self]
  refine (Cert.Lib.PlainMatmul.matmul_zero_apply (M := 512) (K := 2048) (N := 256) none xb
    (transpose S2048x256 [1, 0] bs transposes_S256x2048_p1_0_S2048x256) p h).trans ?_
  refine Finset.sum_congr rfl fun j _ => ?_
  rw [transpose_ix2_apply]

/-- The output block: entry (p, q) is the sum over the 256 harmonics h of
    `resonance (p, h) * weight (q, h)`. -/
theorem output_entry (rs : Vec Ideal S512x256 .bf16) (wb : Vec Ideal S1024x256 .f32) (p : Fin 512) (q : Fin 1024) :
    k0_pay2 (F := Ideal) rs wb (ix2 p q) = ∑ h : Fin 256, rs (ix2 p h) * wb (ix2 q h) := by
  unfold k0_pay2
  simp only [shapeCast_self]
  refine (Cert.Lib.PlainMatmul.matmul_zero_apply (M := 512) (K := 256) (N := 1024) none rs
    (transpose S256x1024 [1, 0] wb transposes_S1024x256_p1_0_S256x1024) p q).trans ?_
  refine Finset.sum_congr rfl fun h _ => ?_
  rw [transpose_ix2_apply]

end Cert.KernelIdeal.Payload

end
-- ==== Proof.Pieces.lean ====
/-
  What one run of the body leaves behind, as values of the blocks it loaded.

  At the first column tile of a row tile the body computes the resonance block of its input block and the basis,
  stores it whole into the carried scratch, reads it back and stores the product with the weight block into the output
  block. At every other column tile it only reads the scratch, which still holds what the row tile's first point left,
  and stores the product with its own weight block. Each store covers its whole buffer from offset zero, so a buffer
  read back after the body is exactly the stored value.
-/
import proofs.«126258_j19301583029003_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem zero_offsets : (![0, 0] : Fin 2 → Nat) = fun _ => 0 := funext fun a => by fin_cases a <;> rfl

/-- First column tile: the scratch ends holding the resonance block of the input block and the basis. -/
theorem scratch_first (c : Dev nD) (i : grid0.Coords) (arg2 : Memref sig .tc .vmem S512x2048 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S512x1024 .f32) (harg5 : arg5.IsWhole) (arg6 : Memref sig .tc .vmem S512x256 .bf16) (harg6 : arg6.IsWhole) (hc0 : cond0_0 i)
    (x0 : Vec F S512x2048 .f32) (x1 : Vec F S256x2048 .f32) (x2 : Vec F S1024x256 .f32) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero zero_offsets]
  simp only [View.readAt_eq_ld, harg2.read_unread, harg3.read_unread, View.ld_unit_zero (S := S512x2048) zero_offsets,
    View.ld_unit_zero (S := S256x2048) zero_offsets]

/-- First column tile: the output block ends holding the product of that resonance block with the weight block. -/
theorem out_first (c : Dev nD) (i : grid0.Coords) (arg2 : Memref sig .tc .vmem S512x2048 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S512x1024 .f32) (harg5 : arg5.IsWhole) (arg6 : Memref sig .tc .vmem S512x256 .bf16) (harg6 : arg6.IsWhole) (hc0 : cond0_0 i)
    (x0 : Vec F S512x2048 .f32) (x1 : Vec F S256x2048 .f32) (x2 : Vec F S1024x256 .f32) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero zero_offsets]
  simp only [View.readAt_eq_ld, harg2.read_unread, harg3.read_unread, harg4.read_unread,
    View.ld_unit_zero (S := S512x2048) zero_offsets, View.ld_unit_zero (S := S256x2048) zero_offsets,
    View.ld_unit_zero (S := S1024x256) zero_offsets, View.readCov_unit_zero (S := S512x256) _ zero_offsets]

/-- Any later column tile: the output block ends holding the product of the scratch as found with the weight block. -/
theorem out_later (c : Dev nD) (i : grid0.Coords) (arg2 : Memref sig .tc .vmem S512x2048 .f32) (harg2 : arg2.IsWhole) (arg3 : Memref sig .tc .vmem S256x2048 .f32) (harg3 : arg3.IsWhole) (arg4 : Memref sig .tc .vmem S1024x256 .f32) (harg4 : arg4.IsWhole) (arg5 : Memref sig .tc .vmem S512x1024 .f32) (harg5 : arg5.IsWhole) (arg6 : Memref sig .tc .vmem S512x256 .bf16) (harg6 : arg6.IsWhole) (hc0 : ¬cond0_0 i)
    (x0 : Vec F S512x2048 .f32) (x1 : Vec F S256x2048 .f32) (x2 : Vec F S1024x256 .f32) (xs0 : Vec F S512x256 .bf16) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero zero_offsets]
  simp only [View.readAt_eq_ld, harg6.read_unread, harg4.read_unread, View.ld_unit_zero (S := S512x256) zero_offsets,
    View.ld_unit_zero (S := S1024x256) zero_offsets]

end Cert.KernelIdeal.Pieces

end
-- ==== Proof.Blocks.lean ====
/-
  Where each window's block sits in its array.

  The grid is 32 row tiles by 8 column tiles, walked row tile by row tile: point t is row tile t / 8, column tile
  t % 8. At point t the input window holds rows 512 (t / 8) … of the flattened input, all 2048 features; the basis
  window holds the whole basis at every point; the weight window holds rows 1024 (t % 8) … of the weight array,
  all 256 harmonics; and the output window is rows 512 (t / 8) …, columns 1024 (t % 8) … of the flat result.
-/
import proofs.«126258_j19301583029003_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The block of the flattened input the body sees at point `t`. -/
abbrev xblk (c : Dev nD) (t : Fin cfg0.N) : Vec F S512x2048 .f32 := iblk m c 0 t
/-- The basis as the body sees it at point `t`. -/
abbrev bblk (c : Dev nD) (t : Fin cfg0.N) : Vec F S256x2048 .f32 := iblk m c 1 t
/-- The block of the weight array the body sees at point `t`. -/
abbrev wblk (c : Dev nD) (t : Fin cfg0.N) : Vec F S1024x256 .f32 := iblk m c 2 t
/-- The flattened input, as the region finds it. -/
abbrev xarr (c : Dev nD) : Vec F S16384x2048 .f32 := V m c main_v0
/-- The basis, as the region finds it. -/
abbrev barr (c : Dev nD) : Vec F S256x2048 .f32 := V m c main_arg1
/-- The weight array, as the region finds it. -/
abbrev warr (c : Dev nD) : Vec F S8192x256 .f32 := V m c main_v2

/-- The windows' block indices at point `t`: row tile `t / 8`, column tile `t % 8` (decided over the 256 points). -/
theorem index_facts : ∀ t : Fin cfg0.N,
    (win0_0.index t 0 = t.val / 8 ∧ win0_0.index t 1 = 0)
    ∧ (win0_1.index t 0 = 0 ∧ win0_1.index t 1 = 0)
    ∧ (win0_2.index t 0 = t.val % 8 ∧ win0_2.index t 1 = 0)
    ∧ (win0_3.index t 0 = t.val / 8 ∧ win0_3.index t 1 = t.val % 8) :=
  (by decide +kernel : ∀ t : Fin grid0.N,
    (win0_0.index t 0 = t.val / 8 ∧ win0_0.index t 1 = 0)
    ∧ (win0_1.index t 0 = 0 ∧ win0_1.index t 1 = 0)
    ∧ (win0_2.index t 0 = t.val % 8 ∧ win0_2.index t 1 = 0)
    ∧ (win0_3.index t 0 = t.val / 8 ∧ win0_3.index t 1 = t.val % 8))

/-- Row `p` of the input block at point `t` is row `512 (t / 8) + p` of the flattened input. -/
theorem xblk_apply (c : Dev nD) (t : Fin cfg0.N) (p : Fin 512) (j : Fin 2048) (r : Fin 16384)
    (hr : r.val = 512 * (t.val / 8) + p.val) :
    xblk m c t (ix2 p j) = xarr m c (ix2 r j) := by
  show iblk m c 0 t (ix2 p j) = _
  unfold iblk
  rw [View.read_apply]
  show V m c main_v0 _ = V m c main_v0 _
  refine congrArg _ (funext fun a => Fin.ext ?_)
  match a with
  | ⟨0, _⟩ => show win0_0.index t 0 * 512 + 1 * p.val = r.val; rw [(index_facts t).1.1, hr]; omega
  | ⟨1, _⟩ => show win0_0.index t 1 * 2048 + 1 * j.val = j.val; rw [(index_facts t).1.2]; omega

/-- The basis block is the basis. -/
theorem bblk_apply (c : Dev nD) (t : Fin cfg0.N) (h : Fin 256) (j : Fin 2048) :
    bblk m c t (ix2 h j) = barr m c (ix2 h j) := by
  show iblk m c 1 t (ix2 h j) = _
  unfold iblk
  rw [View.read_apply]
  show V m c main_arg1 _ = V m c main_arg1 _
  refine congrArg _ (funext fun a => Fin.ext ?_)
  match a with
  | ⟨0, _⟩ => show win0_1.index t 0 * 256 + 1 * h.val = h.val; rw [(index_facts t).2.1.1]; omega
  | ⟨1, _⟩ => show win0_1.index t 1 * 2048 + 1 * j.val = j.val; rw [(index_facts t).2.1.2]; omega

/-- Row `q` of the weight block at point `t` is row `1024 (t % 8) + q` of the weight array. -/
theorem wblk_apply (c : Dev nD) (t : Fin cfg0.N) (q : Fin 1024) (h : Fin 256) (o : Fin 8192)
    (ho : o.val = 1024 * (t.val % 8) + q.val) :
    wblk m c t (ix2 q h) = warr m c (ix2 o h) := by
  show iblk m c 2 t (ix2 q h) = _
  unfold iblk
  rw [View.read_apply]
  show V m c main_v2 _ = V m c main_v2 _
  refine congrArg _ (funext fun a => Fin.ext ?_)
  match a with
  | ⟨0, _⟩ => show win0_2.index t 0 * 1024 + 1 * q.val = o.val; rw [(index_facts t).2.2.1.1, ho]; omega
  | ⟨1, _⟩ => show win0_2.index t 1 * 256 + 1 * h.val = h.val; rw [(index_facts t).2.2.1.2]; omega

end Cert.KernelIdeal.Blocks

end
-- ==== Proof.Spec.lean ====
/-
  The function both programs compute, over the extended reals.

  With x flattened to rows r = 4096 b + s, the RESONANCE of row r with harmonic h is the dot product of row r of the
  input with row h of the basis, over the 2048 input features; the result at (r, o) is the dot product, over the 256
  harmonics, of the resonances of row r with row o of the weight array (the amplitudes times the cosines of the
  phases, which both programs compute by the same two host operations and which stays one array here). Both programs
  sum in these same two stages, so no law beyond the re-indexing of the flattening is needed: the flat [16384, 8192]
  result read back as [4, 4096, 8192] is the same double sum over the unflattened input.
-/
import Idealize.ShloMosaic.Lib.ValueIdx
import Idealize.ShloMosaic.Lib.Pipeline.Value
import Idealize.ShloMosaic.PureOps.Ideal

noncomputable section

namespace Cert.HoloSpec

open Idealize.ShloMosaic Idealize.ShloMosaic.ValueIdx

abbrev SIn3 : Shape := ⟨3, ![4, 4096, 2048]⟩
abbrev SIn2 : Shape := ⟨2, ![16384, 2048]⟩
abbrev SBasis : Shape := ⟨2, ![256, 2048]⟩
abbrev SWeight : Shape := ⟨2, ![8192, 256]⟩
abbrev SOut2 : Shape := ⟨2, ![16384, 8192]⟩
abbrev SOut3 : Shape := ⟨3, ![4, 4096, 8192]⟩

/-- The resonance of flattened row `r` with harmonic `h`: the sum over the input features `j` of
    `X (r, j) * B (h, j)`. -/
def resonance (X : SIn2.Idx → EReal) (B : SBasis.Idx → EReal) (r : Fin 16384) (h : Fin 256) : EReal :=
  ∑ j : Fin 2048, X (ix2 r j) * B (ix2 h j)

/-- The flat result: at (r, o) the sum over the harmonics `h` of `resonance (r, h) * W (o, h)`. -/
def flatOut (X : SIn2.Idx → EReal) (B : SBasis.Idx → EReal) (W : SWeight.Idx → EReal) : SOut2.Idx → EReal :=
  fun i => ∑ h : Fin 256, resonance X B (i 0) h * W (ix2 (i 1) h)

/-- The same double sum over the unflattened input: the result at (b, s, o). -/
def out3 (x : SIn3.Idx → EReal) (B : SBasis.Idx → EReal) (W : SWeight.Idx → EReal) : SOut3.Idx → EReal :=
  fun i => ∑ h : Fin 256, (∑ j : Fin 2048, x (ix3 (i 0) (i 1) j) * B (ix2 h j)) * W (ix2 (i 2) h)

/-- The flattened row that holds (b, s). -/
abbrev flatRow (b : Fin 4) (s : Fin 4096) : Fin 16384 := ⟨4096 * b.val + s.val, by omega⟩

/-- The flattened input at (4096 b + s, j) is the input at (b, s, j): the same row-major position. -/
theorem flatten_apply (x : SIn3.Idx → EReal) (hc : SIn3.ShapeCasts SIn2) (b : Fin 4) (s : Fin 4096) (j : Fin 2048) :
    shapeCast SIn2 x hc (ix2 (flatRow b s) j) = x (ix3 b s j) :=
  shapeCast_apply x hc _ _ (by
    rw [Shape.rowMajor_val_two, Shape.rowMajor_val_three]
    show (b.val * 4096 + s.val) * 2048 + j.val = (4096 * b.val + s.val) * 2048 + j.val
    omega)

/-- The flat result read back as [4, 4096, 8192]: at (b, s, o) it is the flat result at (4096 b + s, o). -/
theorem unflatten_apply (O : SOut2.Idx → EReal) (hc : SOut2.ShapeCasts SOut3) (i : SOut3.Idx) :
    shapeCast SOut3 O hc i = O (ix2 (flatRow (i 0) (i 1)) (i 2)) :=
  shapeCast_apply O hc _ _ (by
    rw [Shape.rowMajor_val_two, Shape.rowMajor_val_three]
    show (4096 * (i 0).val + (i 1).val) * 8192 + (i 2).val = ((i 0).val * 4096 + (i 1).val) * 8192 + (i 2).val
    omega)

/-- Flatten, take the flat result, read it back: the double sum over the unflattened input. -/
theorem unflatten_flatOut (x : SIn3.Idx → EReal) (B : SBasis.Idx → EReal) (W : SWeight.Idx → EReal)
    (hc : SIn3.ShapeCasts SIn2) (hc' : SOut2.ShapeCasts SOut3) :
    shapeCast SOut3 (flatOut (shapeCast SIn2 x hc) B W) hc' = out3 x B W := by
  funext i
  rw [unflatten_apply]
  show ∑ h : Fin 256, resonance (shapeCast SIn2 x hc) B (flatRow (i 0) (i 1)) h * W (ix2 (i 2) h) = _
  unfold out3 resonance
  refine Finset.sum_congr rfl fun h _ => ?_
  congr 1
  refine Finset.sum_congr rfl fun j _ => ?_
  exact congrArg (fun v => v * B (ix2 h j)) (flatten_apply x hc _ _ j)

end Cert.HoloSpec

end
-- ==== Proof.Carried.lean ====
/-
  What the carried scratch and the output block hold after each grid point, over the extended reals.

  Row tile T = t / 8 owns rows 512 T … 512 T + 511 of the flattened input. Its first point (t % 8 = 0) fills the
  scratch with the resonances of those rows; the seven points after it leave the scratch alone. So after EVERY point t
  the scratch entry (p, h) is the resonance of row 512 (t / 8) + p with harmonic h — by induction on the point: a
  first point computes it, a later point inherits it from the point before, which lies in the same row tile. The
  output block after point t is then, at (p, q), the sum over the harmonics of that resonance times the weight of
  column 1024 (t % 8) + q: the flat result at that row and column.
-/
import proofs.«126258_j19301583029003_1_alg».proof.Proof.Payload
import proofs.«126258_j19301583029003_1_alg».proof.Proof.Pieces
import proofs.«126258_j19301583029003_1_alg».proof.Proof.Blocks
import proofs.«126258_j19301583029003_1_alg».proof.Proof.Spec

noncomputable section

namespace Cert.KernelIdeal.Carried

open Idealize.ShloMosaic Idealize.ShloMosaic.TcCoe Idealize.SL.Sem Idealize.ShloMosaic.ValueIdx
open Cert.KernelIdeal Cert.KernelIdeal.Gen Cert.KernelIdeal.Blocks Cert.HoloSpec

variable (m : (ℓ : Loc nD τ sig) → Buf (Elt Ideal) ℓ)

/-- Row `p` of the row tile of point `n`, as a row of the flattened input. -/
abbrev tileRow (n : ℕ) (hn : n < cfg0.N) (p : Fin 512) : Fin 16384 :=
  ⟨512 * (n / 8) + p.val, by have hN : cfg0.N = 256 := N_0; have := p.isLt; omega⟩

/-- Column `q` of the column tile of point `n`, as a column of the flat result. -/
abbrev tileCol (n : ℕ) (q : Fin 1024) : Fin 8192 :=
  ⟨1024 * (n % 8) + q.val, by have := q.isLt; omega⟩

/-- The resonance block computed from the blocks of point `t` holds the resonances of the rows of `t`'s row tile. -/
theorem resonance_block (c : Dev nD) (t : Fin cfg0.N) (p : Fin 512) (h : Fin 256) :
    k0_pay1 (F := Ideal) (xblk m c t) (bblk m c t) (ix2 p h)
      = resonance (xarr m c) (barr m c) (tileRow t.val t.isLt p) h := by
  refine (Payload.resonance_entry (xblk m c t) (bblk m c t) p h).trans ?_
  unfold resonance
  refine Finset.sum_congr rfl fun j _ => ?_
  rw [xblk_apply m c t p j (tileRow t.val t.isLt p) rfl, bblk_apply m c t h j]

/-- The scratch after a first column tile. -/
theorem scratch_at_first (c : Dev nD) (t : Fin cfg0.N) (h0 : t.val % 8 = 0) (p : Fin 512) (h : Fin 256) :
    (outsAt0 m c t.val t.isLt).2 (ix2 p h) = resonance (xarr m c) (barr m c) (tileRow t.val t.isLt p) h := by
  rw [outsAt0_A m c t h0]
  dsimp only
  refine (congrFun (Pieces.scratch_first (F := Ideal) c (grid0.coords t) (ms0_0 t) (hs0_0 t) (ms0_1 t) (hs0_1 t)
    (ms0_2 t) (hs0_2 t) (ms0_3 t) (hs0_3 t) scM0_0 (Memref.isWhole_whole _) ((hcond0_0 t).mpr h0)
    (xblk m c t) (bblk m c t) (wblk m c t)) (ix2 p h)).trans ?_
  exact resonance_block m c t p h

/-- THE CARRIED SCRATCH after every point: the resonances of the rows of the point's row tile. -/
theorem scratch_entry (c : Dev nD) : ∀ (n : ℕ) (hn : n < cfg0.N) (p : Fin 512) (h : Fin 256),
    (outsAt0 m c n hn).2 (ix2 p h) = resonance (xarr m c) (barr m c) (tileRow n hn p) h
  | 0, hn, p, h => scratch_at_first m c ⟨0, hn⟩ rfl p h
  | n + 1, hn, p, h => by
    by_cases h0 : (n + 1) % 8 = 0
    · exact scratch_at_first m c ⟨n + 1, hn⟩ h0 p h
    · rw [outsAt0_B m c ⟨n + 1, hn⟩ h0]
      dsimp only
      unfold sout0_B_0
      show (outsAt0 m c n _).2 (ix2 p h) = _
      rw [scratch_entry c n (Nat.lt_of_succ_lt hn) p h]
      refine congrArg (fun r => resonance (xarr m c) (barr m c) r h) (Fin.ext ?_)
      show 512 * (n / 8) + p.val = 512 * ((n + 1) / 8) + p.val
      omega

/-- THE OUTPUT BLOCK after every point: the flat result on the point's row tile and column tile. -/
theorem out_entry (c : Dev nD) (t : Fin cfg0.N) (p : Fin 512) (q : Fin 1024) :
    (outsAt0 m c t.val t.isLt).1 (ix2 p q)
      = flatOut (xarr m c) (barr m c) (warr m c) (ix2 (tileRow t.val t.isLt p) (tileCol t.val q)) := by
  show _ = ∑ h : Fin 256, resonance (xarr m c) (barr m c) (tileRow t.val t.isLt p) h * warr m c (ix2 (tileCol t.val q) h)
  by_cases h0 : t.val % 8 = 0
  · rw [outsAt0_A m c t h0]
    dsimp only
    refine (congrFun (Pieces.out_first (F := Ideal) c (grid0.coords t) (ms0_0 t) (hs0_0 t) (ms0_1 t) (hs0_1 t)
      (ms0_2 t) (hs0_2 t) (ms0_3 t) (hs0_3 t) scM0_0 (Memref.isWhole_whole _) ((hcond0_0 t).mpr h0)
      (xblk m c t) (bblk m c t) (wblk m c t)) (ix2 p q)).trans ?_
    refine (Payload.output_entry (k0_pay1 (F := Ideal) (xblk m c t) (bblk m c t)) (wblk m c t) p q).trans ?_
    refine Finset.sum_congr rfl fun h _ => ?_
    rw [resonance_block m c t p h, wblk_apply m c t q h (tileCol t.val q) rfl]
  · have hpos : t.val - 1 < cfg0.N := Nat.lt_of_le_of_lt (Nat.sub_le _ _) t.isLt
    rw [outsAt0_B m c t h0]
    dsimp only
    refine (congrFun (Pieces.out_later (F := Ideal) c (grid0.coords t) (ms0_0 t) (hs0_0 t) (ms0_1 t) (hs0_1 t)
      (ms0_2 t) (hs0_2 t) (ms0_3 t) (hs0_3 t) scM0_0 (Memref.isWhole_whole _) (fun hh => h0 ((hcond0_0 t).mp hh))
      (xblk m c t) (bblk m c t) (wblk m c t) (outsAt0 m c (t.val - 1) hpos).2) (ix2 p q)).trans ?_
    refine (Payload.output_entry (outsAt0 m c (t.val - 1) hpos).2 (wblk m c t) p q).trans ?_
    refine Finset.sum_congr rfl fun h _ => ?_
    rw [scratch_entry m c (t.val - 1) hpos p h, wblk_apply m c t q h (tileCol t.val q) rfl]
    refine congrArg (fun r => resonance (xarr m c) (barr m c) r h * warr m c (ix2 (tileCol t.val q) h)) (Fin.ext ?_)
    show 512 * ((t.val - 1) / 8) + p.val = 512 * (t.val / 8) + p.val
    omega

end Cert.KernelIdeal.Carried

end
-- ==== Proof.FlatResult.lean ====
/-
  The kernel's result, whole.

  The 256 output blocks tile the flat [16384, 8192] result: index (r, o) lies in the block of point 8 (r / 512) + o / 1024,
  and that point writes there the flat result's own values. So after the region the result array is the flat result of
  the arrays the region found: the flattened input, the basis, and the weight array the two host operations before the
  region computed (amplitude times cosine of phase). The one host operation after the region reads the flat result back
  as [4, 4096, 8192], which is the double sum over the unflattened input.
-/
import proofs.«126258_j19301583029003_1_alg».proof.Proof.Carried
import Idealize.ShloMosaic.Lib.StableHlo.Run

noncomputable section

namespace Cert.KernelIdeal.FlatResult

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Carried Cert.HoloSpec

variable (m : (ℓ : Loc nD τ sig) → Buf (Elt Ideal) ℓ) (ρ : Dev nD → PrngReg)

/-- The flat result of the arrays the region finds, as contents of the result array. -/
abbrev flat (c : Dev nD) : Buf (Elt Ideal) ((c : Thread nD τ).loc main_v3) :=
  flatOut (xarr m c) (barr m c) (warr m c)

/-- What point `t` writes back is its block of the flat result. -/
theorem flushed_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  funext y
  obtain ⟨p, q, rfl⟩ : ∃ (p : Fin 512) (q : Fin 1024), y = ix2 p q := ⟨y 0, y 1, eq_ix2 y⟩
  show (outsAt0 m c t.val t.isLt).1 (ix2 p q) = flat m c (((cfg0.win 3).blk t).view.emb (ix2 p q))
  rw [out_entry m c t p q]
  refine congrArg (flatOut (xarr m c) (barr m c) (warr m c)) (funext fun a => Fin.ext ?_)
  obtain ⟨-, -, -, e0, e1⟩ := index_facts t
  match a with
  | ⟨0, _⟩ => show 512 * (t.val / 8) + p.val = win0_3.index t 0 * 512 + 1 * p.val; rw [e0]; omega
  | ⟨1, _⟩ => show 1024 * (t.val % 8) + q.val = win0_3.index t 1 * 1024 + 1 * q.val; rw [e1]; omega

/-- Every index of the flat result lies in some point's block. -/
theorem covered (i : S16384x8192.Idx) :
    ∃ t : Fin cfg0.N, (cfg0.win 3).flush t = true ∧ i ∈ ((cfg0.win 3).blk t).view.set := by
  have hi0 : (i 0).val < 16384 := (i 0).isLt
  have hi1 : (i 1).val < 8192 := (i 1).isLt
  have hN : cfg0.N = 256 := N_0
  obtain ⟨t, ht⟩ : ∃ t : Fin cfg0.N, t.val = 8 * ((i 0).val / 512) + (i 1).val / 1024 :=
    ⟨⟨8 * ((i 0).val / 512) + (i 1).val / 1024, by omega⟩, rfl⟩
  refine ⟨t, flush0_3 t, ?_⟩
  show i ∈ ((View.whole main_v3).slice (win0_3.rect t)).set
  rw [View.set_slice_whole, Rect.mem_set_unit]
  obtain ⟨-, -, -, e0, e1⟩ := index_facts t
  intro a
  match a with
  | ⟨0, _⟩ =>
    show win0_3.index t 0 * 512 ≤ (i 0).val ∧ (i 0).val < win0_3.index t 0 * 512 + 512
    rw [e0]; omega
  | ⟨1, _⟩ =>
    show win0_3.index t 1 * 1024 ≤ (i 1).val ∧ (i 1).val < win0_3.index t 1 * 1024 + 1024
    rw [e1]; omega

/-- After the region the result array holds the flat result. -/
theorem final (c : Dev nD) : (dats m 0 c).arrAt 3 cfg0.N = flat m c :=
  (dats m 0 c).arrAt_eq_of_cover 3 (flat m c) (fun t _ => flushed_eq m c t) (covered)

/-- The argument arrays as launched, at their literal shapes. -/
abbrev inp (c : Dev nD) : FVec Ideal S4x4096x2048 .f32 := m ((c : Thread nD τ).loc main_arg0)
abbrev basis (c : Dev nD) : FVec Ideal S256x2048 .f32 := m ((c : Thread nD τ).loc main_arg1)
abbrev phase (c : Dev nD) : FVec Ideal S8192x256 .f32 := m ((c : Thread nD τ).loc main_arg2)
abbrev amp (c : Dev nD) : FVec Ideal S8192x256 .f32 := m ((c : Thread nD τ).loc main_arg3)

/-- The weight array: amplitude times cosine of phase, entry by entry. -/
abbrev weight (c : Dev nD) : FVec Ideal S8192x256 .f32 := mulf (amp m c) (Host.cos (phase m c))

/-- The region finds the input flattened: the first host operation's result. -/
theorem xarr_eq (c : Dev nD) :
    xarr m c = shapeCast S16384x2048 (inp m c) shapeCasts_S4x4096x2048_S16384x2048 := by
  show StableHlo.after hostOps0 (fun b => m (c, b)) (Proc.devRef .tc main_v0) = _
  after_results
  rfl

/-- It finds the basis as launched. -/
theorem barr_eq (c : Dev nD) : barr m c = basis m c := V_main_arg1 m c

/-- It finds the weight array the two host operations computed. -/
theorem warr_eq (c : Dev nD) : warr m c = weight m c := by
  show StableHlo.after hostOps0 (fun b => m (c, b)) (Proc.devRef .tc main_v2) = _
  after_results

/-- The result both programs end with: the double sum over the unflattened input. -/
abbrev result (c : Dev nD) : Buf (Elt Ideal) ((c : Thread nD τ).loc main_v4) :=
  out3 (inp m c) (basis m c) (weight m c)

/-- The host operation after the region reads the flat result back as [4, 4096, 8192]: the result. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  have hA : Pipeline.withArrays (cfgs 0).spec c (V0 m c) (fun w => (dats m 0 c).arrAt w (cfgs 0).N)
      (Proc.devRef .tc main_v3) = flat m c :=
    (Pipeline.withArrays_arr spec0 launch0.win.arr_inj c _ _ 3).trans (final m c)
  rw [hA]
  show shapeCast S4x4096x8192 (flatOut (xarr m c) (barr m c) (warr m c)) shapeCasts_S16384x8192_S4x4096x8192 = _
  rw [xarr_eq, barr_eq, warr_eq]
  exact unflatten_flatOut (inp m c) (basis m c) (weight m c) _ _

/-- THE KERNEL'S RUN, READ: every weakly fair execution ends with the result array at the double sum and the four
    arguments as launched. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.FlatResult

end
-- ==== Proof.Reference.lean ====
/-
  The reference computes the same double sum.

  Its first contraction gives, at (b, s, h), the sum over the input features of `x (b, s, j) * basis (h, j)`; its
  second, at (b, s, o), the sum over the harmonics of that times the weight (o, h), the weight array being the
  amplitudes times the cosines of the phases. Read at an index, that is the double sum of the specification, term by
  term: only the index functions the two contractions compose have to be named by their coordinates.
-/
import proofs.«126258_j19301583029003_1_alg».proof.Proof.Gen.ReferenceIdeal.Run
import proofs.«126258_j19301583029003_1_alg».proof.Proof.Gen.ReferenceIdeal.Read
import proofs.«126258_j19301583029003_1_alg».proof.Proof.Spec

noncomputable section

namespace Cert.ReferenceIdeal.RefValue

open Idealize.ShloMosaic Idealize.ShloMosaic.ValueIdx
open Cert.ReferenceIdeal Cert.ReferenceIdeal.Read Cert.HoloSpec

/-- The reference's result, as one function of its four arguments: the double sum with the weight array
    amplitude times cosine of phase. -/
theorem result_eq (x : FVec Ideal S4x4096x2048 .f32) (bs : FVec Ideal S256x2048 .f32)
    (ph am : FVec Ideal S8192x256 .f32) :
    val_main_v3 (F := Ideal) x bs ph am = out3 x bs (mulf am (Host.cos ph)) := by
  funext i
  rw [val_main_v3_apply]
  unfold out3
  refine Finset.sum_congr rfl fun h _ => ?_
  rw [val_main_v0_apply]
  have e1 : ∀ j : Fin 2048, lidx_main_v0 (lidx_main_v3 i h) j = ix3 (i 0) (i 1) j := fun j =>
    funext fun a => Fin.ext (by match a with | ⟨0, _⟩ => rfl | ⟨1, _⟩ => rfl | ⟨2, _⟩ => rfl)
  have e2 : ∀ j : Fin 2048, ridx_main_v0 (lidx_main_v3 i h) j = ix2 h j := fun j =>
    funext fun a => Fin.ext (by match a with | ⟨0, _⟩ => rfl | ⟨1, _⟩ => rfl)
  have e3 : ridx_main_v3 i h = ix2 (i 2) h :=
    funext fun a => Fin.ext (by match a with | ⟨0, _⟩ => rfl | ⟨1, _⟩ => rfl)
  simp only [e1, e2, e3]
  rfl

end Cert.ReferenceIdeal.RefValue

end
-- ==== Proof.lean ====
/-
  The kernel and its reference compute one function over the extended reals.

  Both programs form, for every flattened row r = 4096 b + s and harmonic h, the resonance
  ∑ j, x (b, s, j) * basis (h, j), and then, for every output feature o, ∑ h, resonance (r, h) * weight (o, h), where
  weight = amp * cos phase is computed by the same two host operations in both. The kernel does it tile by tile:
  a 32 × 8 grid of (row tile, column tile), the resonances of a row tile computed at its first column tile, kept in a
  scratch buffer and reused by the other seven; a change of float format is the identity over the extended reals, so
  the cached block is the exact resonance block. The two programs sum in the same two stages, so the equality needs no
  law of the extended reals beyond the re-indexing of the flattening, and the precondition is not used for it.

  Spec: the function. Payload: the two block products at an entry. Pieces: what one run of the body stores. Blocks:
  where each block sits in its array. Carried: the scratch and the output block after every grid point (induction on
  the point). FlatResult: the tiles cover the flat result; the host operations around the region; the kernel's run.
  Reference: the reference's run is the same double sum. The three frames are the generated frame runs; the
  idealization rewrote nothing.
-/
import proofs.«126258_j19301583029003_1_alg».proof.Defs
import proofs.«126258_j19301583029003_1_alg».proof.Proof.Gen.Kernel
import proofs.«126258_j19301583029003_1_alg».proof.Proof.Gen.Kernel.Skeleton
import proofs.«126258_j19301583029003_1_alg».proof.Proof.Gen.Kernel.Launch
import proofs.«126258_j19301583029003_1_alg».proof.Proof.Gen.Kernel.Points
import proofs.«126258_j19301583029003_1_alg».proof.Proof.Gen.Kernel.Frame
import proofs.«126258_j19301583029003_1_alg».proof.Proof.Gen.KernelIdeal
import proofs.«126258_j19301583029003_1_alg».proof.Proof.Gen.KernelIdeal.Skeleton
import proofs.«126258_j19301583029003_1_alg».proof.Proof.Gen.KernelIdeal.Launch
import proofs.«126258_j19301583029003_1_alg».proof.Proof.Gen.KernelIdeal.Points
import proofs.«126258_j19301583029003_1_alg».proof.Proof.Gen.KernelIdeal.Frame
import proofs.«126258_j19301583029003_1_alg».proof.Proof.Gen.ReferenceIdeal
import proofs.«126258_j19301583029003_1_alg».proof.Proof.Gen.ReferenceIdeal.Run
import proofs.«126258_j19301583029003_1_alg».proof.Proof.Gen.ReferenceIdeal.Read
import proofs.«126258_j19301583029003_1_alg».proof.Proof.Gen.Pre_finite_inputs
import proofs.«126258_j19301583029003_1_alg».proof.Proof.FlatResult
import proofs.«126258_j19301583029003_1_alg».proof.Proof.Reference
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- And the reference: its run, the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- The kernel ends at the double sum of its arguments, the reference at the double sum of its own; the arguments
    agree. -/
theorem algebraic : Cert.algebraic_KernelIdeal_ReferenceIdeal := by
  intro m ρ m' ρ' _ hagree
  refine ⟨fun c => Cert.KernelIdeal.FlatResult.result m c, Cert.KernelIdeal.FlatResult.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v3_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
